-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000x2 : Shape := ⟨2, ![800000, 2]⟩
abbrev S64x64 : Shape := ⟨2, ![64, 64]⟩
abbrev S64 : Shape := ⟨1, ![64]⟩
abbrev S1 : Shape := ⟨1, ![1]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S1600000 : S_.BroadcastsInDim S1600000 (![] : Fin 0 → Fin S1600000.rank)
  reducesTo_S1600000_S_d0 : S1600000.ReducesTo [0] S_
  bcast_S_S800000x2 : S_.BroadcastsInDim S800000x2 (![] : Fin 0 → Fin S800000x2.rank)
  reducesTo_S800000x2_S_d0_1 : S800000x2.ReducesTo [0, 1] S_

variable [Facts]

def fn_part2 {F : FTy → Type} [FloatOps F] (main_arg6 : IVec S1600000 32) (main_v30 : IVec S_ 1) (main_v32 : IVec S1600000 1) (main_c_12 : IVec S_ 32) : IVec S_ 1 :=
  let main_v33 : IVec S1600000 32 := broadcastInDim S1600000 ![] bcast_S_S1600000 main_c_12
  let main_v34 : IVec S1600000 1 := cmpi .slt main_arg6 main_v33
  let main_v35 : IVec S1600000 1 := andi main_v32 main_v34
  let main_c_13 : IVec S_ 1 := constantI S_ 1 1#1
  let main_v36 : IVec S_ 1 := (fun x v => Host.reduce IntOp.andi x v reducesTo_S1600000_S_d0 h_S_) main_v35 main_c_13
  let main_v37 : IVec S_ 1 := andi main_v30 main_v36
  main_v37

def fn_part1 {F : FTy → Type} [FloatOps F] (main_arg1 : IVec S800000x2 32) (main_arg6 : IVec S1600000 32) (main_arg7 : FVec F S1600000 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1600000 .f32 := Host.absf main_arg7
  let main_cst_6 : FVec F S_ .f32 := constant S_ .f32 0x7F800000#32
  let main_v20 : FVec F S1600000 .f32 := broadcastInDim S1600000 ![] bcast_S_S1600000 main_cst_6
  let main_v21 : IVec S1600000 1 := cmpf .olt main_v19 main_v20
  let main_c_7 : IVec S_ 1 := constantI S_ 1 1#1
  let main_v22 : IVec S_ 1 := (fun x v => Host.reduce IntOp.andi x v reducesTo_S1600000_S_d0 h_S_) main_v21 main_c_7
  let main_v23 : IVec S_ 1 := andi main_v18 main_v22
  let main_c_8 : IVec S_ 32 := constantI S_ 32 0#32
  let main_v24 : IVec S800000x2 32 := broadcastInDim S800000x2 ![] bcast_S_S800000x2 main_c_8
  let main_v25 : IVec S800000x2 1 := cmpi .sge main_arg1 main_v24
  let main_c_9 : IVec S_ 32 := constantI S_ 32 100000#32
  let main_v26 : IVec S800000x2 32 := broadcastInDim S800000x2 ![] bcast_S_S800000x2 main_c_9
  let main_v27 : IVec S800000x2 1 := cmpi .slt main_arg1 main_v26
  let main_v28 : IVec S800000x2 1 := andi main_v25 main_v27
  let main_c_10 : IVec S_ 1 := constantI S_ 1 1#1
  let main_v29 : IVec S_ 1 := (fun x v => Host.reduce IntOp.andi x v reducesTo_S800000x2_S_d0_1 h_S_) main_v28 main_c_10
  let main_v30 : IVec S_ 1 := andi main_v23 main_v29
  let main_c_11 : IVec S_ 32 := constantI S_ 32 0#32
  let main_v31 : IVec S1600000 32 := broadcastInDim S1600000 ![] bcast_S_S1600000 main_c_11
  let main_v32 : IVec S1600000 1 := cmpi .sge main_arg6 main_v31
  let main_c_12 : IVec S_ 32 := constantI S_ 32 800000#32
  fn_part2 (F := F) main_arg6 main_v30 main_v32 main_c_12

def fn {F : FTy → Type} [FloatOps F] (main_arg0 : FVec F S100000x64 .f32) (main_arg1 : IVec S800000x2 32) (main_arg2 : FVec F S64x64 .f32) (main_arg3 : FVec F S64 .f32) (main_arg4 : FVec F S1 .f32) (main_arg5 : IVec S1600000 32) (main_arg6 : IVec S1600000 32) (main_arg7 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg1 main_arg6 main_arg7 main_v13 main_v16
-- ==== Kernel.lean ====
abbrev S100000x64 : Shape := ⟨2, ![100000, 64]⟩
abbrev S800000x2 : Shape := ⟨2, ![800000, 2]⟩
abbrev S64x64 : Shape := ⟨2, ![64, 64]⟩
abbrev S64 : Shape := ⟨1, ![64]⟩
abbrev S1 : Shape := ⟨1, ![1]⟩
abbrev S1600000 : Shape := ⟨1, ![1600000]⟩
abbrev S800000x1 : Shape := ⟨2, ![800000, 1]⟩
abbrev S800000 : Shape := ⟨1, ![800000]⟩
abbrev S_ : Shape := ⟨0, ![]⟩
abbrev S1x1 : Shape := ⟨2, ![1, 1]⟩
abbrev S800000x64 : Shape := ⟨2, ![800000, 64]⟩
abbrev S1x64 : Shape := ⟨2, ![1, 64]⟩
abbrev S8000x64 : Shape := ⟨2, ![8000, 64]⟩
abbrev S1600000x1 : Shape := ⟨2, ![1600000, 1]⟩
abbrev S1600000x64 : Shape := ⟨2, ![1600000, 64]⟩
abbrev S8000x1 : Shape := ⟨2, ![8000, 1]⟩
abbrev S10000x64 : Shape := ⟨2, ![10000, 64]⟩

abbrev nBuf : Space → Nat
  | .hbm => 92
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S800000x2, .i32⟩
  | .hbm, ⟨2, _⟩ => ⟨S64x64, .f32⟩
  | .hbm, ⟨3, _⟩ => ⟨S64, .f32⟩
  | .hbm, ⟨4, _⟩ => ⟨S1, .f32⟩
  | .hbm, ⟨5, _⟩ => ⟨S1600000, .i32⟩
  | .hbm, ⟨6, _⟩ => ⟨S1600000, .i32⟩
  | .hbm, ⟨7, _⟩ => ⟨S1600000, .f32⟩
  | .hbm, ⟨8, _⟩ => ⟨S800000x1, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S1, .i32⟩
  | .hbm, ⟨19, _⟩ => ⟨S_, .i32⟩
  | .hbm, ⟨20, _⟩ => ⟨S800000x1, .i32⟩
  | .hbm, ⟨21, _⟩ => ⟨S800000x1, .i1⟩
  | .hbm, ⟨22, _⟩ => ⟨S1x1, .i32⟩
  | .hbm, ⟨23, _⟩ => ⟨S800000x1, .i32⟩
  | .hbm, ⟨24, _⟩ => ⟨S800000x1, .i1⟩
  | .hbm, ⟨25, _⟩ => ⟨S800000x1, .i1⟩
  | .hbm, ⟨26, _⟩ => ⟨S_, .i1⟩
  | .hbm, ⟨27, _⟩ => ⟨S800000, .i1⟩
  | .hbm, ⟨28, _⟩ => ⟨S800000x64, .f32⟩
  | .hbm, ⟨29, _⟩ => ⟨S800000x64, .i1⟩
  | .hbm, ⟨30, _⟩ => ⟨S_, .f32⟩
  | .hbm, ⟨31, _⟩ => ⟨S800000x64, .f32⟩
  | .hbm, ⟨32, _⟩ => ⟨S800000x64, .f32⟩
  | .hbm, ⟨33, _⟩ => ⟨S800000x1, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S1, .i32⟩
  | .hbm, ⟨44, _⟩ => ⟨S_, .i32⟩
  | .hbm, ⟨45, _⟩ => ⟨S800000x1, .i32⟩
  | .hbm, ⟨46, _⟩ => ⟨S800000x1, .i1⟩
  | .hbm, ⟨47, _⟩ => ⟨S1x1, .i32⟩
  | .hbm, ⟨48, _⟩ => ⟨S800000x1, .i32⟩
  | .hbm, ⟨49, _⟩ => ⟨S800000x1, .i1⟩
  | .hbm, ⟨50, _⟩ => ⟨S800000x1, .i1⟩
  | .hbm, ⟨51, _⟩ => ⟨S_, .i1⟩
  | .hbm, ⟨52, _⟩ => ⟨S800000, .i1⟩
  | .hbm, ⟨53, _⟩ => ⟨S800000x64, .f32⟩
  | .hbm, ⟨54, _⟩ => ⟨S800000x64, .i1⟩
  | .hbm, ⟨55, _⟩ => ⟨S_, .f32⟩
  | .hbm, ⟨56, _⟩ => ⟨S800000x64, .f32⟩
  | .hbm, ⟨57, _⟩ => ⟨S800000x64, .f32⟩
  | .hbm, ⟨58, _⟩ => ⟨S64x64, .f32⟩
  | .hbm, ⟨59, _⟩ => ⟨S1x64, .f32⟩
  | .hbm, ⟨60, _⟩ => ⟨S800000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1, .i32⟩
  | .hbm, ⟨70, _⟩ => ⟨S_, .i32⟩
  | .hbm, ⟨71, _⟩ => ⟨S1600000x1, .i32⟩
  | .hbm, ⟨72, _⟩ => ⟨S1600000x1, .i1⟩
  | .hbm, ⟨73, _⟩ => ⟨S1x1, .i32⟩
  | .hbm, ⟨74, _⟩ => ⟨S1600000x1, .i32⟩
  | .hbm, ⟨75, _⟩ => ⟨S1600000x1, .i1⟩
  | .hbm, ⟨76, _⟩ => ⟨S1600000x1, .i1⟩
  | .hbm, ⟨77, _⟩ => ⟨S_, .i1⟩
  | .hbm, ⟨78, _⟩ => ⟨S1600000, .i1⟩
  | .hbm, ⟨79, _⟩ => ⟨S1600000x64, .f32⟩
  | .hbm, ⟨80, _⟩ => ⟨S1600000x64, .i1⟩
  | .hbm, ⟨81, _⟩ => ⟨S_, .f32⟩
  | .hbm, ⟨82, _⟩ => ⟨S1600000x64, .f32⟩
  | .hbm, ⟨83, _⟩ => ⟨S1600000x64, .f32⟩
  | .hbm, ⟨84, _⟩ => ⟨S1600000x1, .f32⟩
  | .hbm, ⟨85, _⟩ => ⟨S1600000x64, .f32⟩
  | .hbm, ⟨86, _⟩ => ⟨S_, .f32⟩
  | .hbm, ⟨87, _⟩ => ⟨S100000x64, .f32⟩
  | .hbm, ⟨88, _⟩ => ⟨S1600000x1, .i32⟩
  | .hbm, ⟨89, _⟩ => ⟨S100000x64, .f32⟩
  | .hbm, ⟨90, _⟩ => ⟨S1x1, .f32⟩
  | .hbm, ⟨91, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S8000x64, .f32⟩
  | .local _ .vmem, ⟨9, _⟩ => ⟨S8000x64, .f32⟩
  | .local _ .vmem, ⟨10, _⟩ => ⟨S8000x1, .f32⟩
  | .local _ .vmem, ⟨11, _⟩ => ⟨S8000x1, .f32⟩
  | .local _ .vmem, ⟨12, _⟩ => ⟨S8000x64, .f32⟩
  | .local _ .vmem, ⟨13, _⟩ => ⟨S8000x64, .f32⟩
  | .local _ .vmem, ⟨14, _⟩ => ⟨S10000x64, .f32⟩
  | .local _ .vmem, ⟨15, _⟩ => ⟨S10000x64, .f32⟩
  | .local _ .vmem, ⟨16, _⟩ => ⟨S1x1, .f32⟩
  | .local _ .vmem, ⟨17, _⟩ => ⟨S10000x64, .f32⟩
  | .local _ .vmem, ⟨18, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_cst : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  slices_S800000x2_S800000x1_0_1 : S800000x2.Slices ![0, 1] S800000x1
  transposes_S64x64_S64x64_1_0 : S64x64.Transposes [1, 0] S64x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1x1_S1600000x1_0_1 : S1x1.BroadcastsInDim S1600000x1 (![0, 1] : Fin 2 → Fin S1600000x1.rank)
  reducesTo_S1600000x1_S1600000_d1 : S1600000x1.ReducesTo [1] S1600000
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S1600000_S1600000x1 : S1600000.ShapeCasts S1600000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S1_S1x1 : S1.ShapeCasts S1x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x64 : S1x1.Broadcasts S10000x64
  gather_S100000x64_S800000x1_S800000x64_1_0_n_n_0_1_164_wf : GatherDims.WF S100000x64 S800000x1 S800000x64 [1] [0] [] [0] [] 1 ![1, 64]
  dot_S8000x64_S64x64_S8000x64_1_0_0_1_n_n_wf : DotDims.WF S8000x64 S64x64 S8000x64 [1] [0] [0] [1] [] []
  gather_S800000x64_S1600000x1_S1600000x64_1_0_n_n_0_1_164_wf : GatherDims.WF S800000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S800000x64.size a
  hwx0_4 : ∀ i : grid0.Coords, EltTy.bits .f32 = 32 ∨ (Rect.block (s := S800000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x1.size a ≤ S1x1.size a
  hwx2_1 : ∀ i : grid2.Coords, EltTy.bits .f32 = 32 ∨ (Rect.block (s := S1x1) S1x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def gather_S800000x64_S1600000x1_S1600000x64_1_0_n_n_0_1_164 : GatherDims S800000x64 S1600000x1 S1600000x64 where
  offsetDims := [1]
  collapsedSliceDims := [0]
  operandBatchingDims := []
  startIndicesBatchingDims := []
  startIndexMap := [0]
  indexVectorDim := 1
  sliceSizes := ![1, 64]
  wf := gather_S800000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v2) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v14) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x64 : Shape := ⟨2, ![100000, 64]⟩
abbrev S800000x2 : Shape := ⟨2, ![800000, 2]⟩
abbrev S64x64 : Shape := ⟨2, ![64, 64]⟩
abbrev S64 : Shape := ⟨1, ![64]⟩
abbrev S1 : Shape := ⟨1, ![1]⟩
abbrev S1600000 : Shape := ⟨1, ![1600000]⟩
abbrev S800000x1 : Shape := ⟨2, ![800000, 1]⟩
abbrev S800000 : Shape := ⟨1, ![800000]⟩
abbrev S_ : Shape := ⟨0, ![]⟩
abbrev S800000x64 : Shape := ⟨2, ![800000, 64]⟩
abbrev S1x64 : Shape := ⟨2, ![1, 64]⟩
abbrev S1600000x1 : Shape := ⟨2, ![1600000, 1]⟩
abbrev S1600000x64 : Shape := ⟨2, ![1600000, 64]⟩
abbrev S1x1 : Shape := ⟨2, ![1, 1]⟩

abbrev nBuf : Space → Nat
  | .hbm => 60
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S800000x2, .i32⟩
  | .hbm, ⟨2, _⟩ => ⟨S64x64, .f32⟩
  | .hbm, ⟨3, _⟩ => ⟨S64, .f32⟩
  | .hbm, ⟨4, _⟩ => ⟨S1, .f32⟩
  | .hbm, ⟨5, _⟩ => ⟨S1600000, .i32⟩
  | .hbm, ⟨6, _⟩ => ⟨S1600000, .i32⟩
  | .hbm, ⟨7, _⟩ => ⟨S1600000, .f32⟩
  | .hbm, ⟨8, _⟩ => ⟨S800000x1, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .f32⟩
  | .hbm, ⟨19, _⟩ => ⟨S800000x1, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S800000x64, .f32⟩
  | .hbm, ⟨32, _⟩ => ⟨S64x64, .f32⟩
  | .hbm, ⟨33, _⟩ => ⟨S800000x64, .f32⟩
  | .hbm, ⟨34, _⟩ => ⟨S1x64, .f32⟩
  | .hbm, ⟨35, _⟩ => ⟨S800000x64, .f32⟩
  | .hbm, ⟨36, _⟩ => ⟨S800000x64, .f32⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S100000x64, .f32⟩
  | .hbm, ⟨51, _⟩ => ⟨S1600000x1, .i32⟩
  | .hbm, ⟨52, _⟩ => ⟨S100000x64, .f32⟩
  | .hbm, ⟨53, _⟩ => ⟨S_, .f32⟩
  | .hbm, ⟨54, _⟩ => ⟨S100000x64, .f32⟩
  | .hbm, ⟨55, _⟩ => ⟨S100000x64, .i1⟩
  | .hbm, ⟨56, _⟩ => ⟨S1x1, .f32⟩
  | .hbm, ⟨57, _⟩ => ⟨S100000x64, .f32⟩
  | .hbm, ⟨58, _⟩ => ⟨S100000x64, .f32⟩
  | .hbm, ⟨59, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]

class Facts₀ : Prop where
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  transposes_S64x64_S64x64_1_0 : S64x64.Transposes [1, 0] S64x64
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1_S1x1_1 : S1.BroadcastsInDim S1x1 (![1] : Fin 1 → Fin S1x1.rank)
  bcast_S1x1_S100000x64_0_1 : S1x1.BroadcastsInDim S100000x64 (![0, 1] : Fin 2 → Fin S100000x64.rank)
  gather_S100000x64_S800000x1_S800000x64_1_0_n_n_0_1_164_wf : GatherDims.WF S100000x64 S800000x1 S800000x64 [1] [0] [] [0] [] 1 ![1, 64]
  dot_S800000x64_S64x64_S800000x64_1_0_0_1_n_n_wf : DotDims.WF S800000x64 S64x64 S800000x64 [1] [0] [0] [1] [] []
  gather_S800000x64_S1600000x1_S1600000x64_1_0_n_n_0_1_164_wf : GatherDims.WF S800000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S800000x64_S1600000x1_S1600000x64_1_0_n_n_0_1_164 : GatherDims S800000x64 S1600000x1 S1600000x64 where
  offsetDims := [1]
  collapsedSliceDims := [0]
  operandBatchingDims := []
  startIndicesBatchingDims := []
  startIndexMap := [0]
  indexVectorDim := 1
  sliceSizes := ![1, 64]
  wf := gather_S800000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Domain.lean ====
/-
  What the precondition says of the two index inputs: every entry of the edge endpoints `X1` is a node index,
  `0 ≤ X1 < 100000`, and every entry of the incidence columns `b1_cols` is an edge index, `0 ≤ b1_cols < 800000`,
  read as signed 32-bit words. The precondition is a conjunction of `all`-reductions evaluating to 1; its last two
  conjuncts are these two ranges.
-/
import proofs.«413370_j18648747999740_3_alg».proof.Pre_finite_inputs
import proofs.«413370_j18648747999740_3_alg».proof.Proof.Gen.Pre_finite_inputs
import Idealize.ShloMosaic.Lib.ReduceAll
import Idealize.ShloMosaic.Lib.ValueIdx

noncomputable section

namespace Cert.Domain

open Idealize.ShloMosaic Idealize.ShloMosaic.ValueIdx Cert.Pre_finite_inputs

instance : Subsingleton S_.Idx := ⟨fun a b => funext fun d => d.elim0⟩

variable {F : FTy → Type} [FloatOps F]

/-- Under the precondition every endpoint index and every column index is in its range. -/
theorem ranges [Cert.Pre_finite_inputs.Facts] (a0 : FVec F S100000x64 .f32) (a1 : IVec S800000x2 32) (a2 : FVec F S64x64 .f32) (a3 : FVec F S64 .f32)
    (a4 : FVec F S1 .f32) (a5 a6 : IVec S1600000 32) (a7 : FVec F S1600000 .f32)
    (h : Cert.Pre_finite_inputs.fn (F := F) a0 a1 a2 a3 a4 a5 a6 a7 = fun _ => 1#1) :
    (∀ i, IntOp.cmpi .sge (a1 i) 0#32 = 1#1 ∧ IntOp.cmpi .slt (a1 i) 100000#32 = 1#1)
    ∧ (∀ i, IntOp.cmpi .sge (a6 i) 0#32 = 1#1 ∧ IntOp.cmpi .slt (a6 i) 800000#32 = 1#1) := by
  have h0 := congrFun h ix0
  dsimp only [Cert.Pre_finite_inputs.fn, Cert.Pre_finite_inputs.fn_part1, Cert.Pre_finite_inputs.fn_part2] at h0
  obtain ⟨h30, h36⟩ := IntOp.andi_eq_one.1 h0
  obtain ⟨h23, h29⟩ := IntOp.andi_eq_one.1 h30
  refine ⟨fun i => ?_, fun i => ?_⟩
  · have e := Host.reduce_andi_all _ _ _ _ ix0 h29 i
    exact IntOp.andi_eq_one.1 e
  · have e := Host.reduce_andi_all _ _ _ _ ix0 h36 i
    exact IntOp.andi_eq_one.1 e

end Cert.Domain

end
-- ==== Proof.Region0.lean ====
/-
  The first region: the squared difference of two gathered rows through the linear layer, 100 row blocks of 8000 rows.
  Each grid point reads row block `t` of the two [800000, 64] row arrays, the whole [64, 64] transposed weight and the
  [1, 64] bias row, and writes row block `t` of the result: entry (r, f) is
  `Σ_k (x0 (r, k) − x1 (r, k))² · wt (k, f) + bias (0, f)` — the change of float format before the product is the
  identity on the extended reals, and the product into a zero accumulator is the plain sum over the one contracted axis.
  The blocks tile the array, so after the region the result array is that function of the four input arrays.
-/
import proofs.«413370_j18648747999740_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

open scoped BigOperators

theorem origin2 : (![0, 0] : Fin 2 → Nat) = fun _ => 0 := funext fun a => by fin_cases a <;> rfl

/-- Entry (r, f): the squared differences of row r against column f of `wt`, plus the bias at f. -/
def linOf (x0 x1 : FVec Ideal S800000x64 .f32) (wt : FVec Ideal S64x64 .f32) (b : FVec Ideal S1x64 .f32) : FVec Ideal S800000x64 .f32 :=
  fun i => (∑ k : Fin 64, ((x0 (ix2 (i 0) k) - x1 (ix2 (i 0) k)) * (x0 (ix2 (i 0) k) - x1 (ix2 (i 0) k))) * wt (ix2 k (i 1))) + b (ix2 0 (i 1))

/-! The operand indices of the block product at an output entry and a contraction position, axis by axis. -/

theorem lhs_ax0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs_ax1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs_ax0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs_ax1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- The block product into the zero accumulator at an entry: row `y 0` of the left operand against column `y 1` of the right. -/
theorem matmul_at {φ₁ φ₂ : FTy} (l : FVec Ideal S8000x64 φ₁) (r : FVec Ideal S64x64 φ₂) (y : S8000x64.Idx) :
    matmul dot_S8000x64_S64x64_S8000x64_1_0_0_1_n_n none l r (constant S8000x64 .f32 0x00000000#32) y
      = ∑ k : Fin 64, (l (ix2 (y 0) k) : EReal) * (r (ix2 k (y 1)) : EReal) := by
  simp only [matmul]
  rw [Ideal.matmul_constant_zero_apply, ← Equiv.sum_comp (ValueIdx.contrEquiv1 dot_S8000x64_S64x64_S8000x64_1_0_0_1_n_n 64 rfl rfl).symm]
  refine Finset.sum_congr rfl fun k _ => ?_
  have hk := ValueIdx.contrEquiv1_symm_val dot_S8000x64_S64x64_S8000x64_1_0_0_1_n_n 64 rfl rfl k
  have el : dot_S8000x64_S64x64_S8000x64_1_0_0_1_n_n.lhsIdx y ((ValueIdx.contrEquiv1 dot_S8000x64_S64x64_S8000x64_1_0_0_1_n_n 64 rfl rfl).symm k) = ix2 (y 0) k := funext fun a => Fin.ext (by
    match a with
    | ⟨0, _⟩ => exact lhs_ax0 _ _
    | ⟨1, _⟩ => exact (lhs_ax1 _ _).trans hk)
  have er : dot_S8000x64_S64x64_S8000x64_1_0_0_1_n_n.rhsIdx y ((ValueIdx.contrEquiv1 dot_S8000x64_S64x64_S8000x64_1_0_0_1_n_n 64 rfl rfl).symm k) = ix2 k (y 1) := funext fun a => Fin.ext (by
    match a with
    | ⟨0, _⟩ => exact (rhs_ax0 _ _).trans hk
    | ⟨1, _⟩ => exact rhs_ax1 _ _)
  rw [el, er]
  rfl

/-- The body's stored value at an entry of the block. -/
theorem pay_apply (v0 v2 : Vec Ideal S8000x64 .f32) (v7 : Vec Ideal S64x64 .f32) (v11 : Vec Ideal S1x64 .f32) (y : S8000x64.Idx) :
    k0_pay1 v0 v2 v7 v11 y
      = (∑ k : Fin 64, (((v0 (ix2 (y 0) k) : EReal) - v2 (ix2 (y 0) k)) * ((v0 (ix2 (y 0) k) : EReal) - v2 (ix2 (y 0) k))) * (v7 (ix2 k (y 1)) : EReal))
        + (v11 (ix2 0 (y 1)) : EReal) := by
  unfold k0_pay1
  simp only [shapeCast_self]
  rw [addf_apply, matmul_at]
  rw [broadcastTo_apply v11 broadcasts_S1x64_S8000x64 y (ix2 0 (y 1)) (fun a => by
    match a with
    | ⟨0, _⟩ => show 0 = if (1 : Nat) = 1 then 0 else (y 0).val; rw [if_pos rfl]
    | ⟨1, _⟩ => show (y 1).val = if (64 : Nat) = 1 then 0 else (y 1).val; rw [if_neg (by decide)])]
  rfl

/-- The printed index maps over the 100 points: the two row inputs' blocks move with the output's down the rows, the weight
    and the bias stay. -/
theorem idx_facts : ∀ t : Fin cfg0.N, win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is row block `t` of the linear layer of the arrays the region finds. -/
theorem flushed_eq (c : Dev nD) (t : Fin cfg0.N) :
    (dat0 V c).flushed 4 t = ((cfg0.win 4).blk t).view.read (Elt Ideal) (linOf (V c main_v2) (V c main_v5) (V c main_v6) (V c main_v7)) := by
  show (cfg0.win 4).cut (grid0.coords t) ((dat0 V c).after 4 t) = _
  rw [after0_4]
  unfold out0_4
  rw [View.canon_unit_zero origin2]
  simp only [View.ld_unit_zero (S := S8000x64) origin2, View.ld_unit_zero (S := S64x64) origin2, View.ld_unit_zero (S := S1x64) origin2]
  obtain ⟨e0, e1, e2, e3, e4, e5, e6, e7, e8, e9⟩ := idx_facts t
  funext j
  show k0_pay1 (iblk0 V c 0 t) (iblk0 V c 1 t) (iblk0 V c 2 t) (iblk0 V c 3 t) j
    = linOf (V c main_v2) (V c main_v5) (V c main_v6) (V c main_v7) (((cfg0.win 4).blk t).view.emb j)
  refine (pay_apply (iblk0 V c 0 t) (iblk0 V c 1 t) (iblk0 V c 2 t) (iblk0 V c 3 t) j).trans ?_
  have h0 : ∀ k : Fin 64, iblk0 V c 0 t (ix2 (j 0) k) = V c main_v2 (ix2 ((((cfg0.win 4).blk t).view.emb j) 0) k) := fun k => by
    show V c main_v2 (((cfg0.win 0).blk t).view.emb (ix2 (j 0) k)) = V c main_v2 (ix2 ((((cfg0.win 4).blk t).view.emb j) 0) k)
    refine congrArg (V c main_v2) (funext fun a => Fin.ext ?_)
    match a with
    | ⟨0, _⟩ => show win0_0.index t (0 : Fin 2) * 8000 + 1 * (j 0).val = win0_4.index t (0 : Fin 2) * 8000 + 1 * (j 0).val; omega
    | ⟨1, _⟩ => show win0_0.index t (1 : Fin 2) * 64 + 1 * k.val = k.val; omega
  have h1 : ∀ k : Fin 64, iblk0 V c 1 t (ix2 (j 0) k) = V c main_v5 (ix2 ((((cfg0.win 4).blk t).view.emb j) 0) k) := fun k => by
    show V c main_v5 (((cfg0.win 1).blk t).view.emb (ix2 (j 0) k)) = V c main_v5 (ix2 ((((cfg0.win 4).blk t).view.emb j) 0) k)
    refine congrArg (V c main_v5) (funext fun a => Fin.ext ?_)
    match a with
    | ⟨0, _⟩ => show win0_1.index t (0 : Fin 2) * 8000 + 1 * (j 0).val = win0_4.index t (0 : Fin 2) * 8000 + 1 * (j 0).val; omega
    | ⟨1, _⟩ => show win0_1.index t (1 : Fin 2) * 64 + 1 * k.val = k.val; omega
  have h2 : ∀ k : Fin 64, iblk0 V c 2 t (ix2 k (j 1)) = V c main_v6 (ix2 k ((((cfg0.win 4).blk t).view.emb j) 1)) := fun k => by
    show V c main_v6 (((cfg0.win 2).blk t).view.emb (ix2 k (j 1))) = V c main_v6 (ix2 k ((((cfg0.win 4).blk t).view.emb j) 1))
    refine congrArg (V c main_v6) (funext fun a => Fin.ext ?_)
    match a with
    | ⟨0, _⟩ => show win0_2.index t (0 : Fin 2) * 64 + 1 * k.val = k.val; omega
    | ⟨1, _⟩ => show win0_2.index t (1 : Fin 2) * 64 + 1 * (j 1).val = win0_4.index t (1 : Fin 2) * 64 + 1 * (j 1).val; omega
  have h3 : iblk0 V c 3 t (ix2 0 (j 1)) = V c main_v7 (ix2 0 ((((cfg0.win 4).blk t).view.emb j) 1)) := by
    show V c main_v7 (((cfg0.win 3).blk t).view.emb (ix2 0 (j 1))) = V c main_v7 (ix2 0 ((((cfg0.win 4).blk t).view.emb j) 1))
    refine congrArg (V c main_v7) (funext fun a => Fin.ext ?_)
    match a with
    | ⟨0, _⟩ => show win0_3.index t (0 : Fin 2) * 1 + 1 * 0 = 0; omega
    | ⟨1, _⟩ => show win0_3.index t (1 : Fin 2) * 64 + 1 * (j 1).val = win0_4.index t (1 : Fin 2) * 64 + 1 * (j 1).val; omega
  rw [h3]
  refine congrArg (· + _) (Finset.sum_congr rfl fun k _ => ?_)
  rw [h0 k, h1 k, h2 k]

/-- An entry of the array is in point `t`'s block iff each coordinate is in the block's range on its axis. -/
theorem mem_blk (t : Fin cfg0.N) (i : S800000x64.Idx) :
    i ∈ ((cfg0.win 4).blk t).view.set ↔ ∀ a : Fin 2, win0_4.index t a * S8000x64.size a ≤ (i a).val ∧ (i a).val < win0_4.index t a * S8000x64.size a + S8000x64.size a := by
  show i ∈ ((View.whole main_v8).slice (win0_4.rect t)).set ↔ _
  rw [View.set_slice_whole, Rect.mem_set_unit]
  exact Iff.rfl

/-- Every entry lies in the block of the point its row falls in. -/
theorem cover (i : S800000x64.Idx) : ∃ t : Fin cfg0.N, (cfg0.win 4).flush t = true ∧ i ∈ ((cfg0.win 4).blk t).view.set := by
  have hi0 : (i 0).val < 800000 := (i 0).isLt
  have hi1 : (i 1).val < 64 := (i 1).isLt
  have hN : cfg0.N = 100 := N_0
  let t : Fin cfg0.N := ⟨(i 0).val / 8000, by omega⟩
  obtain ⟨e0, e1, e2, e3, e4, e5, e6, e7, e8, e9⟩ := idx_facts t
  have e8' : win0_4.index t (0 : Fin 2) = (i 0).val / 8000 := e8
  refine ⟨t, flush0_4 t, ?_⟩
  rw [mem_blk]
  intro a
  match a with
  | ⟨0, _⟩ => show win0_4.index t (0 : Fin 2) * 8000 ≤ (i 0).val ∧ (i 0).val < win0_4.index t (0 : Fin 2) * 8000 + 8000; omega
  | ⟨1, _⟩ => show win0_4.index t (1 : Fin 2) * 64 ≤ (i 1).val ∧ (i 1).val < win0_4.index t (1 : Fin 2) * 64 + 64; omega

/-- After the region its result array is the linear layer of its input arrays, whatever the entry contents. -/
theorem final (c : Dev nD) : (dat0 V c).arrAt 4 cfg0.N = linOf (V c main_v2) (V c main_v5) (V c main_v6) (V c main_v7) :=
  (dat0 V c).arrAt_eq_of_cover 4 (linOf (V c main_v2) (V c main_v5) (V c main_v6) (V c main_v7)) (fun t _ => flushed_eq V c t) cover

end Cert.KernelIdeal.Linear

end
-- ==== Proof.Region1.lean ====
/-
  The second region: each gathered row scaled by its coefficient, 200 row blocks of 8000 rows.
  Each grid point reads row block `t` of the [1600000, 64] gathered rows and of the [1600000, 1] coefficient column
  and writes row block `t` of the result: entry (r, f) is `coefficient r · row (r, f)`. The blocks tile the array,
  so after the region the result array is that function of the two input arrays, entry by entry.
-/
import proofs.«413370_j18648747999740_3_alg».proof.Proof.Gen.KernelIdeal.Frame
import Idealize.ShloMosaic.Lib.Pipeline.Value
import Idealize.ShloMosaic.Lib.ValueIdx

set_option maxRecDepth 16384

noncomputable section

namespace Cert.KernelIdeal.Scale

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- Row r of `x` times entry r of the column `v`, entry by entry. -/
def scaleOf (x : FVec Ideal S1600000x64 .f32) (v : FVec Ideal S1600000x1 .f32) : FVec Ideal S1600000x64 .f32 :=
  fun i => v (ix2 (i 0) 0) * x i

/-- The body's stored value at an entry of the block: the coefficient of the entry's row times the entry. -/
theorem pay_apply (v : Vec Ideal S8000x1 .f32) (x : Vec Ideal S8000x64 .f32) (y : S8000x64.Idx) :
    k1_pay1 v x y = (v (ix2 (y 0) 0) : EReal) * x y := by
  unfold k1_pay1
  simp only [shapeCast_self]
  rw [mulf_apply]
  rw [broadcastTo_apply v broadcasts_S8000x1_S8000x64 y (ix2 (y 0) 0) (fun a => by
    match a with
    | ⟨0, _⟩ => show (y 0).val = if (8000 : Nat) = 1 then 0 else (y 0).val; rw [if_neg (by decide)]
    | ⟨1, _⟩ => show 0 = if (1 : Nat) = 1 then 0 else (y 1).val; rw [if_pos rfl])]

/-- The printed index maps over the 200 points: both inputs' blocks move with the output's, down the rows. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2) ∧ win1_1.index t (1 : Fin 2) = 0
    ∧ win1_2.index t (0 : Fin 2) = t.val ∧ win1_2.index t (1 : Fin 2) = 0 :=
  (by decide +kernel : ∀ t : Fin grid1.N, _)

/-- What point `t` writes back is row block `t` of the scaled rows of the arrays the region finds. -/
theorem flushed_eq (c : Dev nD) (t : Fin cfg1.N) :
    (dat1 V c).flushed 2 t = ((cfg1.win 2).blk t).view.read (Elt Ideal) (scaleOf (V c main_v9) (V c main_v10)) := by
  show (cfg1.win 2).cut (grid1.coords t) ((dat1 V c).after 2 t) = _
  rw [after1_2]
  unfold out1_2
  rw [View.canon_unit_zero origin2]
  simp only [View.ld_unit_zero (S := S8000x64) origin2, View.ld_unit_zero (S := S8000x1) origin2]
  obtain ⟨e0, e1, e2, e3, e4, e5⟩ := idx_facts t
  funext j
  show k1_pay1 (iblk1 V c 1 t) (iblk1 V c 0 t) j = scaleOf (V c main_v9) (V c main_v10) (((cfg1.win 2).blk t).view.emb j)
  refine (pay_apply (iblk1 V c 1 t) (iblk1 V c 0 t) j).trans ?_
  have h0 : iblk1 V c 0 t j = V c main_v9 (((cfg1.win 2).blk t).view.emb j) := by
    show V c main_v9 (((cfg1.win 0).blk t).view.emb j) = V c main_v9 (((cfg1.win 2).blk t).view.emb j)
    refine congrArg (V c main_v9) (funext fun a => Fin.ext ?_)
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : iblk1 V c 1 t (ix2 (j 0) 0) = V c main_v10 (ix2 ((((cfg1.win 2).blk t).view.emb j) 0) 0) := by
    show V c main_v10 (((cfg1.win 1).blk t).view.emb (ix2 (j 0) 0)) = V c main_v10 (ix2 ((((cfg1.win 2).blk t).view.emb j) 0) 0)
    refine congrArg (V c main_v10) (funext fun a => Fin.ext ?_)
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  rw [h0, h1]
  rfl

/-- An entry of the array is in point `t`'s block iff each coordinate is in the block's range on its axis. -/
theorem mem_blk (t : Fin cfg1.N) (i : S1600000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v11).slice (win1_2.rect t)).set ↔ _
  rw [View.set_slice_whole, Rect.mem_set_unit]
  exact Iff.rfl

/-- Every entry lies in the block of the point its row falls in. -/
theorem cover (i : S1600000x64.Idx) : ∃ t : Fin cfg1.N, (cfg1.win 2).flush t = true ∧ i ∈ ((cfg1.win 2).blk t).view.set := by
  have hi0 : (i 0).val < 1600000 := (i 0).isLt
  have hi1 : (i 1).val < 64 := (i 1).isLt
  have hN : cfg1.N = 200 := N_1
  let t : Fin cfg1.N := ⟨(i 0).val / 8000, by omega⟩
  obtain ⟨e0, e1, e2, e3, e4, e5⟩ := idx_facts t
  have e4' : win1_2.index t (0 : Fin 2) = (i 0).val / 8000 := e4
  refine ⟨t, flush1_2 t, ?_⟩
  rw [mem_blk]
  intro a
  match a with
  | ⟨0, _⟩ => show win1_2.index t (0 : Fin 2) * 8000 ≤ (i 0).val ∧ (i 0).val < win1_2.index t (0 : Fin 2) * 8000 + 8000; omega
  | ⟨1, _⟩ => show win1_2.index t (1 : Fin 2) * 64 ≤ (i 1).val ∧ (i 1).val < win1_2.index t (1 : Fin 2) * 64 + 64; omega

/-- After the region its result array is the scaled rows of its input arrays, whatever the entry contents. -/
theorem final (c : Dev nD) : (dat1 V c).arrAt 2 cfg1.N = scaleOf (V c main_v9) (V c main_v10) :=
  (dat1 V c).arrAt_eq_of_cover 2 (scaleOf (V c main_v9) (V c main_v10)) (fun t _ => flushed_eq V c t) cover

end Cert.KernelIdeal.Scale

end
-- ==== Proof.Region2.lean ====
/-
  The third region: the parametric rectifier over the aggregated node features, ten row blocks of 10000 rows.
  Each grid point reads row block `t` of the [100000, 64] array and the one slope, and writes row block `t` of the
  result: entry (r, f) is `a` when `a ≥ 0` and `slope · a` otherwise, `a` the input's entry (r, f). The ten blocks
  tile the array, so after the region the result array is that function of the input array, entry by entry.
-/
import proofs.«413370_j18648747999740_3_alg».proof.Proof.Gen.KernelIdeal.Frame
import Idealize.ShloMosaic.Lib.Pipeline.Value
import Idealize.ShloMosaic.Lib.ValueIdx

set_option maxRecDepth 16384

noncomputable section

namespace Cert.KernelIdeal.Prelu

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The rectifier with slope `w (0, 0)`, entry by entry. -/
def preluOf (agg : FVec Ideal S100000x64 .f32) (w : FVec Ideal S1x1 .f32) : FVec Ideal S100000x64 .f32 :=
  fun i => Scalar.select (FloatOps.cmpf (F := Ideal) .oge (agg i) (Ideal.ofBits .f32 0x00000000#32)) (agg i) (w (ix2 0 0) * agg i)

/-- The body's stored value at an entry of the block: the rectifier of the loaded block's entry. -/
theorem pay_apply (x0 : Vec Ideal S10000x64 .f32) (x1 : Vec Ideal S1x1 .f32) (y : S10000x64.Idx) :
    k2_pay1 x0 x1 y
      = Scalar.select (FloatOps.cmpf (F := Ideal) .oge (x0 y) (Ideal.ofBits .f32 0x00000000#32)) (x0 y) ((x1 (ix2 0 0) : EReal) * x0 y) := by
  unfold k2_pay1
  simp only [shapeCast_self]
  rw [select_apply, cmpf_apply, mulf_apply, broadcast_apply]
  rw [broadcastTo_apply x1 broadcasts_S1x1_S10000x64 y (ix2 0 0) (fun a => by
    match a with
    | ⟨0, _⟩ => rfl
    | ⟨1, _⟩ => rfl)]
  rfl

/-- The printed index maps over the ten points: the input's block moves with the output's, the slope's block stays. -/
theorem idx_facts : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is row block `t` of the rectifier of the arrays the region finds. -/
theorem flushed_eq (c : Dev nD) (t : Fin cfg2.N) :
    (dat2 V c).flushed 2 t = ((cfg2.win 2).blk t).view.read (Elt Ideal) (preluOf (V c main_v14) (V c main_v15)) := by
  show (cfg2.win 2).cut (grid2.coords t) ((dat2 V c).after 2 t) = _
  rw [after2_2]
  unfold out2_2
  rw [View.canon_unit_zero origin2]
  simp only [View.ld_unit_zero (S := S10000x64) origin2, View.ld_unit_zero (S := S1x1) origin2]
  obtain ⟨e0, e1, e2, e3, e4, e5⟩ := idx_facts t
  funext j
  show k2_pay1 (iblk2 V c 0 t) (iblk2 V c 1 t) j = preluOf (V c main_v14) (V c main_v15) (((cfg2.win 2).blk t).view.emb j)
  refine (pay_apply (iblk2 V c 0 t) (iblk2 V c 1 t) j).trans ?_
  have h0 : iblk2 V c 0 t j = V c main_v14 (((cfg2.win 2).blk t).view.emb j) := by
    show V c main_v14 (((cfg2.win 0).blk t).view.emb j) = V c main_v14 (((cfg2.win 2).blk t).view.emb j)
    refine congrArg (V c main_v14) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : iblk2 V c 1 t (ix2 0 0) = V c main_v15 (ix2 0 0) := by
    show V c main_v15 (((cfg2.win 1).blk t).view.emb (ix2 0 0)) = V c main_v15 (ix2 0 0)
    refine congrArg (V c main_v15) (funext fun a => Fin.ext ?_)
    match a with
    | ⟨0, _⟩ => show win2_1.index t (0 : Fin 2) * 1 + 1 * 0 = 0; omega
    | ⟨1, _⟩ => show win2_1.index t (1 : Fin 2) * 1 + 1 * 0 = 0; omega
  rw [h0, h1]
  rfl

/-- An entry of the array is in point `t`'s block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v16).slice (win2_2.rect t)).set ↔ _
  rw [View.set_slice_whole, Rect.mem_set_unit]
  exact Iff.rfl

/-- Every entry lies in the block of the point its row falls in. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 10 := N_2
  let t : Fin cfg2.N := ⟨(i 0).val / 10000, by omega⟩
  obtain ⟨e0, e1, e2, e3, e4, e5⟩ := idx_facts t
  have e4' : win2_2.index t (0 : Fin 2) = (i 0).val / 10000 := e4
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- After the region its result array is the rectifier of its input array, whatever the entry contents. -/
theorem final (c : Dev nD) : (dat2 V c).arrAt 2 cfg2.N = preluOf (V c main_v14) (V c main_v15) :=
  (dat2 V c).arrAt_eq_of_cover 2 (preluOf (V c main_v14) (V c main_v15)) (fun t _ => flushed_eq V c t) cover

end Cert.KernelIdeal.Prelu

end
-- ==== Proof.HostArgs.lean ====
/-
  The argument arrays stay at their launch contents through every segment of @main: no host operation writes an
  argument, and no region writes one back (the regions' arrays are intermediate buffers). So the buffer contents at every
  segment boundary, read at an argument, walk back to the launch memory.
-/
import proofs.«413370_j18648747999740_3_alg».proof.Proof.Gen.KernelIdeal.Frame
import Idealize.ShloMosaic.Lib.StableHlo.Run
import Idealize.ShloMosaic.PureOps.Ideal

set_option maxRecDepth 16384

noncomputable section

namespace Cert.KernelIdeal.Kept

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- Closes `StableHlo.after ops V b = V b` for a literal stretch `ops` none of whose operations writes `b`. -/
local macro "kept_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The eight arguments. -/
abbrev args : List (Ref sig .tc) := [main_arg0, main_arg1, main_arg2, main_arg3, main_arg4, main_arg5, main_arg6, main_arg7]

theorem W1_arg (c : Dev nD) (b : Ref sig .tc) (hb : b ∈ args) : W1 m ρ c (Proc.devRef .tc b) = m ((c : Thread nD τ).loc b) := by
  simp only [args, List.mem_cons, List.not_mem_nil, or_false] at hb
  rcases hb with rfl | rfl | rfl | rfl | rfl | rfl | rfl | rfl <;>
  · refine Eq.trans ?_ (rfl : W0 m ρ c (Proc.devRef .tc _) = _)
    kept_by hostOps0

theorem W2_arg (c : Dev nD) (b : Ref sig .tc) (hb : b ∈ args) : W2 m ρ c (Proc.devRef .tc b) = m ((c : Thread nD τ).loc b) := by
  refine Eq.trans ?_ (W1_arg m ρ c b hb)
  simp only [args, List.mem_cons, List.not_mem_nil, or_false] at hb
  rcases hb with rfl | rfl | rfl | rfl | rfl | rfl | rfl | rfl <;>
  · show StableHlo.after hostOps0_1 (W1 m ρ c) (Proc.devRef .tc _) = W1 m ρ c (Proc.devRef .tc _)
    kept_by hostOps0_1

theorem W3_arg (c : Dev nD) (b : Ref sig .tc) (hb : b ∈ args) : W3 m ρ c (Proc.devRef .tc b) = m ((c : Thread nD τ).loc b) := by
  refine Eq.trans ?_ (W2_arg m ρ c b hb)
  simp only [args, List.mem_cons, List.not_mem_nil, or_false] at hb
  rcases hb with rfl | rfl | rfl | rfl | rfl | rfl | rfl | rfl <;>
  · show StableHlo.after hostOps0_2 (W2 m ρ c) (Proc.devRef .tc _) = W2 m ρ c (Proc.devRef .tc _)
    kept_by hostOps0_2

theorem W4_arg (c : Dev nD) (b : Ref sig .tc) (hb : b ∈ args) : W4 m ρ c (Proc.devRef .tc b) = m ((c : Thread nD τ).loc b) := by
  refine Eq.trans ?_ (W3_arg m ρ c b hb)
  simp only [args, List.mem_cons, List.not_mem_nil, or_false] at hb
  rcases hb with rfl | rfl | rfl | rfl | rfl | rfl | rfl | rfl <;>
  · show StableHlo.after hostOps0_3 (W3 m ρ c) (Proc.devRef .tc _) = W3 m ρ c (Proc.devRef .tc _)
    kept_by hostOps0_3

theorem W5_arg (c : Dev nD) (b : Ref sig .tc) (hb : b ∈ args) : W5 m ρ c (Proc.devRef .tc b) = m ((c : Thread nD τ).loc b) := by
  refine Eq.trans ?_ (W4_arg m ρ c b hb)
  simp only [args, List.mem_cons, List.not_mem_nil, or_false] at hb
  rcases hb with rfl | rfl | rfl | rfl | rfl | rfl | rfl | rfl <;>
  · show StableHlo.after hostOps0_4 (W4 m ρ c) (Proc.devRef .tc _) = W4 m ρ c (Proc.devRef .tc _)
    kept_by hostOps0_4

theorem W6_arg (c : Dev nD) (b : Ref sig .tc) (hb : b ∈ args) : W6 m ρ c (Proc.devRef .tc b) = m ((c : Thread nD τ).loc b) := by
  refine Eq.trans ?_ (W5_arg m ρ c b hb)
  simp only [args, List.mem_cons, List.not_mem_nil, or_false] at hb
  rcases hb with rfl | rfl | rfl | rfl | rfl | rfl | rfl | rfl <;>
  · exact W6_of_ne m ρ c _ (by decide)

theorem W7_arg (c : Dev nD) (b : Ref sig .tc) (hb : b ∈ args) : W7 m ρ c (Proc.devRef .tc b) = m ((c : Thread nD τ).loc b) := by
  refine Eq.trans ?_ (W6_arg m ρ c b hb)
  simp only [args, List.mem_cons, List.not_mem_nil, or_false] at hb
  rcases hb with rfl | rfl | rfl | rfl | rfl | rfl | rfl | rfl <;>
  · show StableHlo.after hostOps1 (W6 m ρ c) (Proc.devRef .tc _) = W6 m ρ c (Proc.devRef .tc _)
    kept_by hostOps1

theorem W8_arg (c : Dev nD) (b : Ref sig .tc) (hb : b ∈ args) : W8 m ρ c (Proc.devRef .tc b) = m ((c : Thread nD τ).loc b) := by
  refine Eq.trans ?_ (W7_arg m ρ c b hb)
  simp only [args, List.mem_cons, List.not_mem_nil, or_false] at hb
  rcases hb with rfl | rfl | rfl | rfl | rfl | rfl | rfl | rfl <;>
  · show StableHlo.after hostOps1_1 (W7 m ρ c) (Proc.devRef .tc _) = W7 m ρ c (Proc.devRef .tc _)
    kept_by hostOps1_1

theorem W9_arg (c : Dev nD) (b : Ref sig .tc) (hb : b ∈ args) : W9 m ρ c (Proc.devRef .tc b) = m ((c : Thread nD τ).loc b) := by
  refine Eq.trans ?_ (W8_arg m ρ c b hb)
  simp only [args, List.mem_cons, List.not_mem_nil, or_false] at hb
  rcases hb with rfl | rfl | rfl | rfl | rfl | rfl | rfl | rfl <;>
  · exact W9_of_ne m ρ c _ (by decide)

end Cert.KernelIdeal.Kept

end
-- ==== Proof.LibTakeFill.lean ====
/-
  General facts about a row gather that fills out-of-range rows (`jnp.take` in its default mode), for indices that are
  in range.

  Such a take lowers to: wrap negative indices (`select (w < 0) (w + n) w`), gather with the wrapped indices, and select
  between the gathered rows and a fill row by the mask "0 ≤ wrapped index ≤ n − 1", reduced by `and` over the index
  vector's one component and broadcast along the row. When every index is in range the wrap is the identity, every mask
  bit is one, and the select returns the gathered rows.
-/
import Idealize.ShloMosaic.Lib.Pipeline.Value
import Idealize.ShloMosaic.Lib.ValueIdx
import Idealize.ShloMosaic.Lib.Affine
import Idealize.ShloMosaic.PureOps.Reduce

noncomputable section

namespace Cert.LibTakeFill

open Idealize.ShloMosaic Idealize.ShloMosaic.ValueIdx

/-- A left fold by `and` from 1 over bits that are all 1 is 1. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 (f a) = 1#1 := by rw [h a (List.mem_cons_self ..)]; decide
    rw [List.foldl_cons, e]
    exact foldl_andi_of_all f l fun n hn => h n (List.mem_cons_of_mem _ hn)

/-- A reduction by `and` from 1 of a mask whose bits are all 1 is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_of_all x _ fun n _ => hx n

/-- A select whose mask is 1 everywhere is its first branch. -/
theorem select_of_all_one {S : Shape} {α : Type} (M : IVec S 1) (G Fill : S.Idx → α) (hM : ∀ i, M i = 1#1) :
    select M G Fill = G :=
  funext fun i => by rw [select_apply, hM i, select_one]

/-- THE FILLING SELECT: with every index between its bounds, the rows gathered are what the select returns. -/
theorem take_fill_eq {n d : Nat} {α : Type} (idx lo hi : IVec ⟨2, ![n, 1]⟩ 32) (one : IVec ⟨0, ![]⟩ 1)
    (hred : (⟨2, ![n, 1]⟩ : Shape).ReducesTo ([1] : List (Fin 2)) ⟨1, ![n]⟩) (hu : 0 < (⟨0, ![]⟩ : Shape).numel)
    (hb : (⟨1, ![n]⟩ : Shape).BroadcastsInDim ⟨2, ![n, d]⟩ ![0]) (G Fill : (⟨2, ![n, d]⟩ : Shape).Idx → α)
    (hlo : ∀ i, IntOp.cmpi .sge (idx i) (lo i) = 1#1) (hhi : ∀ i, IntOp.cmpi .sle (idx i) (hi i) = 1#1)
    (hone : one (Shape.Idx.first hu) = 1#1) :
    select (broadcastInDim ⟨2, ![n, d]⟩ ![0] hb
      (Host.reduce IntOp.andi (andi (cmpi .sge idx lo) (cmpi .sle idx hi)) one hred hu)) G Fill = G := by
  refine select_of_all_one _ _ _ fun i => ?_
  refine (broadcastInDim_apply _ hb _ i (ix1 (i 0)) (fun a => by
    match a with
    | ⟨0, _⟩ =>
      show (i 0).val = if n = 1 then 0 else (i 0).val
      have hi0 : (i 0).val < n := (i 0).isLt
      split
      · omega
      · rfl)).trans ?_
  refine reduce_andi_of_all _ _ hred hu (fun i' => ?_) hone _
  show IntOp.andi (IntOp.cmpi .sge (idx i') (lo i')) (IntOp.cmpi .sle (idx i') (hi i')) = 1#1
  rw [hlo i', hhi i']
  decide

/-- The wrap of negative indices leaves a nonnegative index alone. -/
theorem wrap_of_nonneg (w n : BitVec 32) (h : IntOp.cmpi .sge w 0#32 = 1#1) :
    Scalar.select (IntOp.cmpi .slt w 0#32) (IntOp.addi w n) w = w := by
  have h0 : IntOp.cmpi .slt w 0#32 = 0#1 := by
    refine eq_zero_of_ne_one fun e => ?_
    have h1 := IntOp.cmpi_sge.1 h
    have h2 := IntOp.cmpi_slt.1 e
    omega
  rw [h0, select_zero]

/-- Below `n` is at most `n − 1`, read signed. -/
theorem sle_pred_of_slt (w n p : BitVec 32) (h : IntOp.cmpi .slt w n = 1#1) (hp : n.toInt = p.toInt + 1) :
    IntOp.cmpi .sle w p = 1#1 := by
  rw [IntOp.cmpi_sle]
  have h1 := IntOp.cmpi_slt.1 h
  omega

end Cert.LibTakeFill

end
-- ==== Proof.HostTake.lean ====
/-
  The two row gathers of the kernel's host side, which fill out-of-range rows, as pure functions of the table and the
  index vector, and what they are for indices in range: the plain gather at the (unchanged) indices.
-/
import proofs.«413370_j18648747999740_3_alg».proof.Proof.Gen.KernelIdeal
import proofs.«413370_j18648747999740_3_alg».proof.Proof.LibTakeFill

noncomputable section

namespace Cert.KernelIdeal.Take

open Cert.KernelIdeal Cert.KernelIdeal.Gen Idealize.ShloMosaic Idealize.ShloMosaic.ValueIdx

variable {F : FTy → Type} [FloatOps F]

/-- The take of node rows by edge endpoints: the wrapped start indices, as the [n, 1] column the gather reads. -/
def startsN (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- The take of node rows by edge endpoints: rows gathered at the wrapped indices, a fill row where the wrapped index is outside [0, 99999]. -/
def takeN (x : FVec F S100000x64 .f32) (idx : IVec S800000 32) : FVec F S800000x64 .f32 :=
  select (broadcastInDim S800000x64 ![0] bcast_S800000_S800000x64_0
      (Host.reduce IntOp.andi
        (andi (cmpi .sge (startsN idx) (broadcastInDim S800000x1 ![] bcast_S_S800000x1 (constantI S_ 32 0#32)))
          (cmpi .sle (startsN idx) (broadcastInDim S800000x1 ![0, 1] bcast_S1x1_S800000x1_0_1
            (broadcastInDim S1x1 ![1] bcast_S1_S1x1_1 (constantI S1 32 99999#32)))))
        (constantI S_ 1 1#1) reducesTo_S800000x1_S800000_d1 h_S_))
    (Host.gather gather_S100000x64_S800000x1_S800000x64_1_0_n_n_0_1_164 x (startsN idx))
    (broadcastInDim S800000x64 ![] bcast_S_S800000x64 (constant S_ .f32 0x7FC00000#32))

/-- With every index in [0, 100000) the fill never shows: the take is the plain gather at the wrapped indices. -/
theorem takeN_eq (x : FVec F S100000x64 .f32) (idx : IVec S800000 32)
    (h : ∀ k, IntOp.cmpi .sge (idx k) 0#32 = 1#1 ∧ IntOp.cmpi .slt (idx k) 100000#32 = 1#1) :
    takeN x idx = Host.gather gather_S100000x64_S800000x1_S800000x64_1_0_n_n_0_1_164 x (startsN idx) := by
  have hs : ∀ i : S800000x1.Idx, startsN idx i = idx (ix1 (i 0)) := fun i => by
    unfold startsN
    refine (broadcastInDim_apply _ bcast_S800000_S800000x1_0 _ i (ix1 (i 0)) (fun a => by
      match a with
      | ⟨0, _⟩ => show (i 0).val = if (800000 : Nat) = 1 then 0 else (i 0).val; rw [if_neg (by decide)])).trans ?_
    exact Cert.LibTakeFill.wrap_of_nonneg _ _ (h _).1
  unfold takeN
  refine Cert.LibTakeFill.take_fill_eq _ _ _ _ reducesTo_S800000x1_S800000_d1 h_S_ bcast_S800000_S800000x64_0 _ _ (fun i => ?_) (fun i => ?_) rfl
  · rw [hs i]; exact (h _).1
  · rw [hs i]; exact Cert.LibTakeFill.sle_pred_of_slt _ 100000#32 99999#32 (h _).2 (by decide)

/-- The take of edge rows by incidence columns: the wrapped start indices, as the [n, 1] column the gather reads. -/
def startsE (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 800000#32))) idx)

/-- The take of edge rows by incidence columns: rows gathered at the wrapped indices, a fill row where the wrapped index is outside [0, 799999]. -/
def takeE (x : FVec F S800000x64 .f32) (idx : IVec S1600000 32) : FVec F S1600000x64 .f32 :=
  select (broadcastInDim S1600000x64 ![0] bcast_S1600000_S1600000x64_0
      (Host.reduce IntOp.andi
        (andi (cmpi .sge (startsE idx) (broadcastInDim S1600000x1 ![] bcast_S_S1600000x1 (constantI S_ 32 0#32)))
          (cmpi .sle (startsE idx) (broadcastInDim S1600000x1 ![0, 1] bcast_S1x1_S1600000x1_0_1
            (broadcastInDim S1x1 ![1] bcast_S1_S1x1_1 (constantI S1 32 799999#32)))))
        (constantI S_ 1 1#1) reducesTo_S1600000x1_S1600000_d1 h_S_))
    (Host.gather gather_S800000x64_S1600000x1_S1600000x64_1_0_n_n_0_1_164 x (startsE idx))
    (broadcastInDim S1600000x64 ![] bcast_S_S1600000x64 (constant S_ .f32 0x7FC00000#32))

/-- With every index in [0, 800000) the fill never shows: the take is the plain gather at the wrapped indices. -/
theorem takeE_eq (x : FVec F S800000x64 .f32) (idx : IVec S1600000 32)
    (h : ∀ k, IntOp.cmpi .sge (idx k) 0#32 = 1#1 ∧ IntOp.cmpi .slt (idx k) 800000#32 = 1#1) :
    takeE x idx = Host.gather gather_S800000x64_S1600000x1_S1600000x64_1_0_n_n_0_1_164 x (startsE idx) := by
  have hs : ∀ i : S1600000x1.Idx, startsE idx i = idx (ix1 (i 0)) := fun i => by
    unfold startsE
    refine (broadcastInDim_apply _ bcast_S1600000_S1600000x1_0 _ i (ix1 (i 0)) (fun a => by
      match a with
      | ⟨0, _⟩ => show (i 0).val = if (1600000 : Nat) = 1 then 0 else (i 0).val; rw [if_neg (by decide)])).trans ?_
    exact Cert.LibTakeFill.wrap_of_nonneg _ _ (h _).1
  unfold takeE
  refine Cert.LibTakeFill.take_fill_eq _ _ _ _ reducesTo_S1600000x1_S1600000_d1 h_S_ bcast_S1600000_S1600000x64_0 _ _ (fun i => ?_) (fun i => ?_) rfl
  · rw [hs i]; exact (h _).1
  · rw [hs i]; exact Cert.LibTakeFill.sle_pred_of_slt _ 800000#32 799999#32 (h _).2 (by decide)

end Cert.KernelIdeal.Take

end
-- ==== Proof.HostSide.lean ====
/-
  The idealized kernel's result as ONE pure function of its eight argument arrays, for index inputs in range.

  @main is three regions among stretches of host operations. Each stretch's result buffers are read as the stretch's
  operations applied to what it finds; each region's result array is the whole-array function proved for it; the arguments
  stay as launched throughout. Chained from the launch memory: the two endpoint columns of `X1` gather node rows
  (the filling gathers are plain gathers, the indices being in range), the first region makes the edge features, the
  incidence columns gather edge rows, the second region scales them, the scatter-add sums them by incidence row, and the
  third region applies the rectifier.
-/
import proofs.«413370_j18648747999740_3_alg».proof.Proof.Region0
import proofs.«413370_j18648747999740_3_alg».proof.Proof.Region1
import proofs.«413370_j18648747999740_3_alg».proof.Proof.Region2
import proofs.«413370_j18648747999740_3_alg».proof.Proof.HostArgs
import proofs.«413370_j18648747999740_3_alg».proof.Proof.HostTake
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo
open Cert.KernelIdeal.Take Cert.KernelIdeal.Linear Cert.KernelIdeal.Scale Cert.KernelIdeal.Prelu Cert.KernelIdeal.Kept

/-- Closes `StableHlo.after ops V b = V b` for a literal stretch `ops` none of whose operations writes `b`. -/
local macro "kept_by " ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- Contents carried to a buffer's own type and back are the contents. -/
theorem ofBuf_toBuf {T : BufTy} {Val : EltTy → Type} (x : TRef sig T) (v : T.Contents Val) :
    x.ofBuf (x.toBuf v) = v := by
  obtain ⟨r, h, _, _⟩ := x
  subst h
  rfl

/-! ## Each stretch, read at the buffers a region or a later stretch takes -/

section Stretches
variable (V : Valuation τ sig (Elt Ideal))

/-- Column `j` of the endpoint pairs, as a vector of 800000 indices. -/
def column (a1 : IVec S800000x2 32) (j : Fin 2) (h : S800000x2.Slices ![0, j.val] S800000x1) : IVec S800000 32 :=
  shapeCast S800000 (extractStridedSlice S800000x1 ![0, j.val] a1 h) shapeCasts_S800000x1_S800000

theorem first_column : after hostOps0 V (Proc.devRef .tc main_v1)
    = column (V (Proc.devRef .tc main_arg1)) 0 slices_S800000x2_S800000x1_0_0 := by
  after_results_simp <;> rfl

set_option maxHeartbeats 2000000 in
theorem first_take (hV : ∀ k, IntOp.cmpi .sge (V (Proc.devRef .tc main_v1) k) 0#32 = 1#1 ∧ IntOp.cmpi .slt (V (Proc.devRef .tc main_v1) k) 100000#32 = 1#1) :
    after hostOps0_1 V (Proc.devRef .tc main_v2)
      = Host.gather gather_S100000x64_S800000x1_S800000x64_1_0_n_n_0_1_164 (V (Proc.devRef .tc main_arg0)) (startsN (V (Proc.devRef .tc main_v1))) := by
  after_results_simp
  simp only [ofBuf_toBuf]
  refine (congrArg (TRef.toBuf _) (takeN_eq (F := Ideal) _ _ ?_)).trans ?_
  · exact hV
  · rfl

theorem second_column : after hostOps0_2 V (Proc.devRef .tc main_v4)
    = column (V (Proc.devRef .tc main_arg1)) 1 slices_S800000x2_S800000x1_0_1 := by
  after_results_simp <;> rfl

set_option maxHeartbeats 2000000 in
theorem second_take (hV : ∀ k, IntOp.cmpi .sge (V (Proc.devRef .tc main_v4) k) 0#32 = 1#1 ∧ IntOp.cmpi .slt (V (Proc.devRef .tc main_v4) k) 100000#32 = 1#1) :
    after hostOps0_3 V (Proc.devRef .tc main_v5)
      = Host.gather gather_S100000x64_S800000x1_S800000x64_1_0_n_n_0_1_164 (V (Proc.devRef .tc main_arg0)) (startsN (V (Proc.devRef .tc main_v4))) := by
  after_results_simp
  simp only [ofBuf_toBuf]
  refine (congrArg (TRef.toBuf _) (takeN_eq (F := Ideal) _ _ ?_)).trans ?_
  · exact hV
  · rfl

theorem weight_t : after hostOps0_4 V (Proc.devRef .tc main_v6)
    = transpose S64x64 [1, 0] (V (Proc.devRef .tc main_arg2)) transposes_S64x64_S64x64_1_0 := by
  after_results_simp <;> rfl

theorem bias_row : after hostOps0_4 V (Proc.devRef .tc main_v7)
    = shapeCast S1x64 (V (Proc.devRef .tc main_arg3)) shapeCasts_S64_S1x64 := by
  after_results_simp <;> rfl

set_option maxHeartbeats 2000000 in
theorem third_take (hV : ∀ k, IntOp.cmpi .sge (V (Proc.devRef .tc main_arg6) k) 0#32 = 1#1 ∧ IntOp.cmpi .slt (V (Proc.devRef .tc main_arg6) k) 800000#32 = 1#1) :
    after hostOps1 V (Proc.devRef .tc main_v9)
      = Host.gather gather_S800000x64_S1600000x1_S1600000x64_1_0_n_n_0_1_164 (V (Proc.devRef .tc main_v8)) (startsE (V (Proc.devRef .tc main_arg6))) := by
  after_results_simp
  simp only [ofBuf_toBuf]
  refine (congrArg (TRef.toBuf _) (takeE_eq (F := Ideal) _ _ ?_)).trans ?_
  · exact hV
  · rfl

theorem coeff_col : after hostOps1_1 V (Proc.devRef .tc main_v10)
    = shapeCast S1600000x1 (V (Proc.devRef .tc main_arg7)) shapeCasts_S1600000_S1600000x1 := by
  after_results_simp <;> rfl

theorem summed : after hostOps2 V (Proc.devRef .tc main_v14)
    = Host.scatterAdd scatter_S100000x64_S1600000x1_S1600000x64_1_0_0_1
        (broadcastInDim S100000x64 ![] bcast_S_S100000x64 (constant (F := Ideal) S_ .f32 0x00000000#32))
        (broadcastInDim S1600000x1 ![0] bcast_S1600000_S1600000x1_0 (V (Proc.devRef .tc main_arg5)))
        (V (Proc.devRef .tc main_v11)) := by
  after_results_simp <;> rfl

theorem slope_11 : after hostOps2 V (Proc.devRef .tc main_v15)
    = shapeCast S1x1 (V (Proc.devRef .tc main_arg4)) shapeCasts_S1_S1x1 := by
  after_results_simp <;> rfl

end Stretches

/-! ## The result as one function of the arguments -/

/-- The edge features: the linear layer of the squared difference of the two endpoint rows. -/
def edgeFeat (a0 : FVec Ideal S100000x64 .f32) (a1 : IVec S800000x2 32) (a2 : FVec Ideal S64x64 .f32) (a3 : FVec Ideal S64 .f32) :
    FVec Ideal S800000x64 .f32 :=
  linOf (Host.gather gather_S100000x64_S800000x1_S800000x64_1_0_n_n_0_1_164 a0 (startsN (column a1 0 slices_S800000x2_S800000x1_0_0)))
    (Host.gather gather_S100000x64_S800000x1_S800000x64_1_0_n_n_0_1_164 a0 (startsN (column a1 1 slices_S800000x2_S800000x1_0_1)))
    (transpose S64x64 [1, 0] a2 transposes_S64x64_S64x64_1_0) (shapeCast S1x64 a3 shapeCasts_S64_S1x64)

/-- The messages: each incidence entry's edge row times its coefficient. -/
def messages (a0 : FVec Ideal S100000x64 .f32) (a1 : IVec S800000x2 32) (a2 : FVec Ideal S64x64 .f32) (a3 : FVec Ideal S64 .f32)
    (a6 : IVec S1600000 32) (a7 : FVec Ideal S1600000 .f32) : FVec Ideal S1600000x64 .f32 :=
  scaleOf (Host.gather gather_S800000x64_S1600000x1_S1600000x64_1_0_n_n_0_1_164 (edgeFeat a0 a1 a2 a3) (startsE a6)) (shapeCast S1600000x1 a7 shapeCasts_S1600000_S1600000x1)

/-- The kernel's result: the rectifier of the messages summed by incidence row. -/
def result (a0 : FVec Ideal S100000x64 .f32) (a1 : IVec S800000x2 32) (a2 : FVec Ideal S64x64 .f32) (a3 : FVec Ideal S64 .f32)
    (a4 : FVec Ideal S1 .f32) (a5 a6 : IVec S1600000 32) (a7 : FVec Ideal S1600000 .f32) : FVec Ideal S100000x64 .f32 :=
  preluOf
    (Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 a5) (messages a0 a1 a2 a3 a6 a7))
    (shapeCast S1x1 a4 shapeCasts_S1_S1x1)

/-! ## The chain from the launch memory -/

section Chain
variable (m : (ℓ : Loc nD τ sig) → Buf (Elt Ideal) ℓ) (ρ : Dev nD → PrngReg) (c : Dev nD)
variable (hX : ∀ i, IntOp.cmpi .sge (m ((c : Thread nD τ).loc main_arg1) i) 0#32 = 1#1 ∧ IntOp.cmpi .slt (m ((c : Thread nD τ).loc main_arg1) i) 100000#32 = 1#1)
variable (hC : ∀ i, IntOp.cmpi .sge (m ((c : Thread nD τ).loc main_arg6) i) 0#32 = 1#1 ∧ IntOp.cmpi .slt (m ((c : Thread nD τ).loc main_arg6) i) 800000#32 = 1#1)

include hX in
/-- The first region finds the rows at the first endpoints. -/
theorem entry0_x0 : V5 m ρ c main_v2
    = Host.gather gather_S100000x64_S800000x1_S800000x64_1_0_n_n_0_1_164 (m ((c : Thread nD τ).loc main_arg0)) (startsN (column (m ((c : Thread nD τ).loc main_arg1)) 0 slices_S800000x2_S800000x1_0_0)) := by
  have e4 : W5 m ρ c (Proc.devRef .tc main_v2) = W4 m ρ c (Proc.devRef .tc main_v2) := by
    show after hostOps0_4 (W4 m ρ c) _ = _; kept_by hostOps0_4
  have e3 : W4 m ρ c (Proc.devRef .tc main_v2) = W3 m ρ c (Proc.devRef .tc main_v2) := by
    show after hostOps0_3 (W3 m ρ c) _ = _; kept_by hostOps0_3
  have e2 : W3 m ρ c (Proc.devRef .tc main_v2) = W2 m ρ c (Proc.devRef .tc main_v2) := by
    show after hostOps0_2 (W2 m ρ c) _ = _; kept_by hostOps0_2
  show W5 m ρ c (Proc.devRef .tc main_v2) = _
  rw [e4, e3, e2]
  show after hostOps0_1 (W1 m ρ c) (Proc.devRef .tc main_v2) = _
  have ev : W1 m ρ c (Proc.devRef .tc main_v1) = column (m ((c : Thread nD τ).loc main_arg1)) 0 slices_S800000x2_S800000x1_0_0 :=
    first_column (W0 m ρ c)
  rw [first_take (W1 m ρ c) (by rw [ev]; exact fun k => hX _), W1_arg m ρ c main_arg0 (by decide), ev]

include hX in
/-- And the rows at the second endpoints. -/
theorem entry0_x1 : V5 m ρ c main_v5
    = Host.gather gather_S100000x64_S800000x1_S800000x64_1_0_n_n_0_1_164 (m ((c : Thread nD τ).loc main_arg0)) (startsN (column (m ((c : Thread nD τ).loc main_arg1)) 1 slices_S800000x2_S800000x1_0_1)) := by
  have e4 : W5 m ρ c (Proc.devRef .tc main_v5) = W4 m ρ c (Proc.devRef .tc main_v5) := by
    show after hostOps0_4 (W4 m ρ c) _ = _; kept_by hostOps0_4
  show W5 m ρ c (Proc.devRef .tc main_v5) = _
  rw [e4]
  show after hostOps0_3 (W3 m ρ c) (Proc.devRef .tc main_v5) = _
  have ev : W3 m ρ c (Proc.devRef .tc main_v4) = column (m ((c : Thread nD τ).loc main_arg1)) 1 slices_S800000x2_S800000x1_0_1 := by
    show after hostOps0_2 (W2 m ρ c) (Proc.devRef .tc main_v4) = _
    rw [second_column, W2_arg m ρ c main_arg1 (by decide)]
  rw [second_take (W3 m ρ c) (by rw [ev]; exact fun k => hX _), W3_arg m ρ c main_arg0 (by decide), ev]

/-- The transposed weight. -/
theorem entry0_wt : V5 m ρ c main_v6 = transpose S64x64 [1, 0] (m ((c : Thread nD τ).loc main_arg2)) transposes_S64x64_S64x64_1_0 := by
  show after hostOps0_4 (W4 m ρ c) (Proc.devRef .tc main_v6) = _
  rw [weight_t, W4_arg m ρ c main_arg2 (by decide)]

/-- The bias as a row. -/
theorem entry0_b : V5 m ρ c main_v7 = shapeCast S1x64 (m ((c : Thread nD τ).loc main_arg3)) shapeCasts_S64_S1x64 := by
  show after hostOps0_4 (W4 m ρ c) (Proc.devRef .tc main_v7) = _
  rw [bias_row, W4_arg m ρ c main_arg3 (by decide)]

include hX in
/-- After the first region its result array holds the edge features. -/
theorem after0 : W6 m ρ c (Proc.devRef .tc main_v8)
    = edgeFeat (m ((c : Thread nD τ).loc main_arg0)) (m ((c : Thread nD τ).loc main_arg1)) (m ((c : Thread nD τ).loc main_arg2)) (m ((c : Thread nD τ).loc main_arg3)) := by
  refine (W6_arr m ρ c 4).trans ((Linear.final (V5 m ρ) c).trans ?_)
  rw [entry0_x0 m ρ c hX, entry0_x1 m ρ c hX, entry0_wt, entry0_b]
  rfl

include hX hC in
/-- The second region finds the edge rows at the incidence columns. -/
theorem entry1_x : V8 m ρ c main_v9
    = Host.gather gather_S800000x64_S1600000x1_S1600000x64_1_0_n_n_0_1_164 (edgeFeat (m ((c : Thread nD τ).loc main_arg0)) (m ((c : Thread nD τ).loc main_arg1)) (m ((c : Thread nD τ).loc main_arg2)) (m ((c : Thread nD τ).loc main_arg3)))
        (startsE (m ((c : Thread nD τ).loc main_arg6))) := by
  have e8 : W8 m ρ c (Proc.devRef .tc main_v9) = W7 m ρ c (Proc.devRef .tc main_v9) := by
    show after hostOps1_1 (W7 m ρ c) _ = _; kept_by hostOps1_1
  show W8 m ρ c (Proc.devRef .tc main_v9) = _
  rw [e8]
  show after hostOps1 (W6 m ρ c) (Proc.devRef .tc main_v9) = _
  have e6 : W6 m ρ c (Proc.devRef .tc main_arg6) = m ((c : Thread nD τ).loc main_arg6) := W6_arg m ρ c main_arg6 (by decide)
  rw [third_take (W6 m ρ c) (by rw [e6]; exact hC), after0 m ρ c hX, e6]

/-- And the coefficients as a column. -/
theorem entry1_v : V8 m ρ c main_v10 = shapeCast S1600000x1 (m ((c : Thread nD τ).loc main_arg7)) shapeCasts_S1600000_S1600000x1 := by
  show after hostOps1_1 (W7 m ρ c) (Proc.devRef .tc main_v10) = _
  rw [coeff_col, W7_arg m ρ c main_arg7 (by decide)]

include hX hC in
/-- After the second region its result array holds the messages. -/
theorem after1 : W9 m ρ c (Proc.devRef .tc main_v11)
    = messages (m ((c : Thread nD τ).loc main_arg0)) (m ((c : Thread nD τ).loc main_arg1)) (m ((c : Thread nD τ).loc main_arg2)) (m ((c : Thread nD τ).loc main_arg3))
        (m ((c : Thread nD τ).loc main_arg6)) (m ((c : Thread nD τ).loc main_arg7)) := by
  refine (W9_arr m ρ c 2).trans ((Scale.final (V8 m ρ) c).trans ?_)
  rw [entry1_x m ρ c hX hC, entry1_v]
  rfl

include hX hC in
/-- THE RESULT: after the third region the result array is `result` of the launch contents of the arguments. -/
theorem final : W11 m ρ c (Proc.devRef .tc main_v16)
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  have ea : V10 m ρ c main_v14 = Host.scatterAdd scatter_S100000x64_S1600000x1_S1600000x64_1_0_0_1
      (broadcastInDim S100000x64 ![] bcast_S_S100000x64 (constant (F := Ideal) S_ .f32 0x00000000#32))
      (broadcastInDim S1600000x1 ![0] bcast_S1600000_S1600000x1_0 (m ((c : Thread nD τ).loc main_arg5)))
      (messages (m ((c : Thread nD τ).loc main_arg0)) (m ((c : Thread nD τ).loc main_arg1)) (m ((c : Thread nD τ).loc main_arg2)) (m ((c : Thread nD τ).loc main_arg3))
        (m ((c : Thread nD τ).loc main_arg6)) (m ((c : Thread nD τ).loc main_arg7))) := by
    show after hostOps2 (W9 m ρ c) (Proc.devRef .tc main_v14) = _
    rw [summed, W9_arg m ρ c main_arg5 (by decide), after1 m ρ c hX hC]
  have ew : V10 m ρ c main_v15 = shapeCast S1x1 (m ((c : Thread nD τ).loc main_arg4)) shapeCasts_S1_S1x1 := by
    show after hostOps2 (W9 m ρ c) (Proc.devRef .tc main_v15) = _
    rw [slope_11, W9_arg m ρ c main_arg4 (by decide)]
  refine (W11_arr m ρ c 2).trans ((Prelu.final (V10 m ρ) c).trans ?_)
  rw [ea, ew]
  rfl

end Chain

end Cert.KernelIdeal.Whole

end
-- ==== Proof.Bridge.lean ====
/-
  The kernel's result function IS the reference's, stage by stage.

  Both programs gather the same node rows at the same wrapped endpoint indices; the kernel's block products and the
  reference's `dot_general` are the same sum over the one contracted axis; the bias, the coefficient column and the slope
  reach the same entries through a reshape on one side and a broadcast on the other; the second gather, the scatter-add
  and the rectifier are the same operations of the same arrays. No algebra on the extended reals is needed: the two
  sides are equal term by term.
-/
import proofs.«413370_j18648747999740_3_alg».proof.Proof.HostSide
import proofs.«413370_j18648747999740_3_alg».proof.Proof.Gen.ReferenceIdeal.Read

set_option maxRecDepth 16384

noncomputable section

namespace Cert.Bridge

open Idealize.ShloMosaic Idealize.ShloMosaic.ValueIdx
open Cert.ReferenceIdeal.Read
open Cert.KernelIdeal.Whole Cert.KernelIdeal.Take Cert.KernelIdeal.Linear Cert.KernelIdeal.Scale Cert.KernelIdeal.Prelu
open scoped BigOperators

variable (x0 : FVec Ideal Cert.ReferenceIdeal.S100000x64 .f32) (x1 : IVec Cert.ReferenceIdeal.S800000x2 32) (x2 : FVec Ideal Cert.ReferenceIdeal.S64x64 .f32)
  (x3 : FVec Ideal Cert.ReferenceIdeal.S64 .f32) (x4 : FVec Ideal Cert.ReferenceIdeal.S1 .f32) (x5 x6 : IVec Cert.ReferenceIdeal.S1600000 32) (x7 : FVec Ideal Cert.ReferenceIdeal.S1600000 .f32)

/-- The rows at the first endpoints. -/
theorem rows0 (h) : Host.gather Cert.KernelIdeal.gather_S100000x64_S800000x1_S800000x64_1_0_n_n_0_1_164 x0 (startsN (column x1 0 h)) = val_main_v8 (F := Ideal) x0 x1 := rfl

/-- The rows at the second endpoints. -/
theorem rows1 (h) : Host.gather Cert.KernelIdeal.gather_S100000x64_S800000x1_S800000x64_1_0_n_n_0_1_164 x0 (startsN (column x1 1 h)) = val_main_v17 (F := Ideal) x0 x1 := rfl

/-- The transposed weight. -/
theorem weight (h) : transpose Cert.KernelIdeal.S64x64 [1, 0] x2 h = val_main_v20 (F := Ideal) x2 := rfl

/-- The edge features. -/
theorem feat_eq : edgeFeat x0 x1 x2 x3 = val_main_v24 (F := Ideal) x0 x1 x2 x3 := by
  funext i
  rw [val_main_v24_apply, val_main_v21_apply, val_main_v23_apply, val_main_v22_apply]
  unfold edgeFeat linOf
  rw [rows0, rows1, weight]
  have hl : ∀ k : Fin 64, lidx_main_v21 i k = ix2 (i 0) k := fun k => funext fun a => by
    match a with
    | ⟨0, _⟩ => rfl
    | ⟨1, _⟩ => rfl
  have hr : ∀ k : Fin 64, ridx_main_v21 i k = ix2 k (i 1) := fun k => funext fun a => by
    match a with
    | ⟨0, _⟩ => rfl
    | ⟨1, _⟩ => rfl
  have hb : shapeCast Cert.KernelIdeal.S1x64 x3 Cert.KernelIdeal.Facts₀.shapeCasts_S64_S1x64 (ix2 0 (i 1)) = x3 (idx_main_v22 (idx_main_v23 i)) :=
    shapeCast_apply x3 _ _ _ (by
      rewrite [Shape.rowMajor_val_one, Shape.rowMajor_val_two]
      show (i 1).val = 0 * 64 + (i 1).val
      omega)
  rw [hb]
  refine congrArg (· + _) (Finset.sum_congr rfl fun k _ => ?_)
  rw [hl k, hr k]
  rfl

/-- The messages. -/
theorem messages_eq : messages x0 x1 x2 x3 x6 x7 = val_main_v34 (F := Ideal) x0 x1 x2 x3 x6 x7 := by
  funext i
  rw [val_main_v34_apply, val_main_v33_apply, val_main_v25_apply]
  unfold messages scaleOf
  rw [feat_eq]
  have hv : shapeCast Cert.KernelIdeal.S1600000x1 x7 Cert.KernelIdeal.Facts₀.shapeCasts_S1600000_S1600000x1 (ix2 (i 0) 0) = x7 (idx_main_v25 (idx_main_v33 i)) :=
    shapeCast_apply x7 _ _ _ (by
      rewrite [Shape.rowMajor_val_one, Shape.rowMajor_val_two]
      show (i 0).val = (i 0).val * 1 + 0
      omega)
  rw [hv]
  rfl

/-- THE TWO RESULTS ARE ONE FUNCTION of the eight arguments. -/
theorem result_eq : result x0 x1 x2 x3 x4 x5 x6 x7 = val_main_v43 (F := Ideal) x0 x1 x2 x3 x4 x5 x6 x7 := by
  have hagg : Host.scatterAdd Cert.KernelIdeal.scatter_S100000x64_S1600000x1_S1600000x64_1_0_0_1
      (broadcastInDim Cert.KernelIdeal.S100000x64 ![] Cert.KernelIdeal.Facts₀.bcast_S_S100000x64 (constant (F := Ideal) Cert.KernelIdeal.S_ .f32 0x00000000#32))
      (broadcastInDim Cert.KernelIdeal.S1600000x1 ![0] Cert.KernelIdeal.Facts₀.bcast_S1600000_S1600000x1_0 x5) (messages x0 x1 x2 x3 x6 x7)
      = val_main_v37 (F := Ideal) x0 x1 x2 x3 x5 x6 x7 := by
    rw [messages_eq]
    rfl
  funext i
  rw [val_main_v43_apply, val_main_v39_apply, val_main_v42_apply, val_main_v41_apply, val_main_v40_apply, val_main_v38_apply,
    val_main_cst_5_apply]
  unfold result preluOf
  rw [hagg]
  have hw : shapeCast Cert.KernelIdeal.S1x1 x4 Cert.KernelIdeal.Facts₀.shapeCasts_S1_S1x1 (ix2 0 0) = x4 (idx_main_v40 (idx_main_v41 i)) :=
    shapeCast_apply x4 _ _ _ (by
      rewrite [Shape.rowMajor_val_one, Shape.rowMajor_val_two]
      show 0 = 0 * 1 + 0
      omega)
  rw [hw]
  rfl

end Cert.Bridge

end
-- ==== Proof.lean ====
/-
  The certificate of the message-passing layer: per edge the squared difference of its two endpoint rows through a
  linear layer; per incidence entry the edge's row scaled by its coefficient; the sum of those by node; a parametric
  rectifier — three tiled regions among host gathers and a scatter-add, against the plain array program.

  The claim holds for index inputs in range (the precondition states it): there the kernel's filling gathers and the
  reference's clamping gathers read the same rows. Then the two programs are the same function of the arguments term by
  term: the block products and the reference's `dot_general` are one sum over the contracted axis (a change of float format
  is the identity on the extended reals), and every other stage is the same operation on both sides. The kernel's run is its
  generated frame with the result array named; each region's array is read block by block; the host stretches are read as
  their operations applied in order.
-/
import proofs.«413370_j18648747999740_3_alg».proof.Defs
import proofs.«413370_j18648747999740_3_alg».proof.Proof.Gen.Kernel
import proofs.«413370_j18648747999740_3_alg».proof.Proof.Gen.Kernel.Skeleton
import proofs.«413370_j18648747999740_3_alg».proof.Proof.Gen.Kernel.Launch
import proofs.«413370_j18648747999740_3_alg».proof.Proof.Gen.Kernel.Points
import proofs.«413370_j18648747999740_3_alg».proof.Proof.Gen.Kernel.Frame
import proofs.«413370_j18648747999740_3_alg».proof.Proof.Gen.KernelIdeal
import proofs.«413370_j18648747999740_3_alg».proof.Proof.Gen.KernelIdeal.Skeleton
import proofs.«413370_j18648747999740_3_alg».proof.Proof.Gen.KernelIdeal.Launch
import proofs.«413370_j18648747999740_3_alg».proof.Proof.Gen.KernelIdeal.Points
import proofs.«413370_j18648747999740_3_alg».proof.Proof.Gen.KernelIdeal.Frame
import proofs.«413370_j18648747999740_3_alg».proof.Proof.Gen.ReferenceIdeal
import proofs.«413370_j18648747999740_3_alg».proof.Proof.Gen.ReferenceIdeal.Run
import proofs.«413370_j18648747999740_3_alg».proof.Proof.Gen.ReferenceIdeal.Read
import proofs.«413370_j18648747999740_3_alg».proof.Proof.Gen.Pre_finite_inputs
import proofs.«413370_j18648747999740_3_alg».proof.Proof.KernelRun
import proofs.«413370_j18648747999740_3_alg».proof.Proof.Domain
import proofs.«413370_j18648747999740_3_alg».proof.Proof.HostSide
import proofs.«413370_j18648747999740_3_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the kernel's result function of the arguments: the kernel by its chain from the launch memory
    (the index inputs in range by the precondition), the reference because its composed term is that function. -/
theorem algebraic : Cert.algebraic_KernelIdeal_ReferenceIdeal := by
  intro m ρ m' ρ' hpre hagree
  refine ⟨fun c => Cert.KernelIdeal.Whole.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Named.run (F := Ideal) m ρ)
    obtain ⟨hX, hC⟩ := Cert.Domain.ranges _ _ _ _ _ _ _ _ (hpre c)
    exact Cert.KernelIdeal.Whole.final m ρ c hX hC
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v43_eq, e0, e1, e2, e3, e4, e5, e6, e7]
    exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
